-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256x7x7 : Shape := ⟨4, ![4096, 256, 7, 7]⟩
abbrev S100 : Shape := ⟨1, ![100]⟩
abbrev S4096x2 : Shape := ⟨2, ![4096, 2]⟩
abbrev S80x600 : Shape := ⟨2, ![80, 600]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S_ : Shape := ⟨0, ![]⟩

class Facts : Prop where
  bcast_S_S4096x256x7x7 : S_.BroadcastsInDim S4096x256x7x7 (![] : Fin 0 → Fin S4096x256x7x7.rank)
  reducesTo_S4096x256x7x7_S_d0_1_2_3 : S4096x256x7x7.ReducesTo [0, 1, 2, 3] S_
  h_S_ : 0 < S_.numel
  bcast_S_S100 : S_.BroadcastsInDim S100 (![] : Fin 0 → Fin S100.rank)
  reducesTo_S100_S_d0 : S100.ReducesTo [0] S_
  bcast_S_S80x600 : S_.BroadcastsInDim S80x600 (![] : Fin 0 → Fin S80x600.rank)
  reducesTo_S80x600_S_d0_1 : S80x600.ReducesTo [0, 1] S_
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x600 : S_.BroadcastsInDim S1024x600 (![] : Fin 0 → Fin S1024x600.rank)
  reducesTo_S1024x600_S_d0_1 : S1024x600.ReducesTo [0, 1] S_
  bcast_S_S600 : S_.BroadcastsInDim S600 (![] : Fin 0 → Fin S600.rank)
  reducesTo_S600_S_d0 : S600.ReducesTo [0] S_

variable [Facts]

def fn_part2 {F : FTy → Type} [FloatOps F] (main_arg9 : FVec F S1024x600 .f32) (main_arg10 : FVec F S600 .f32) (main_v33 : IVec S_ 1) : IVec S_ 1 :=
  let main_v34 : FVec F S1024x600 .f32 := Host.absf main_arg9
  let main_cst_12 : FVec F S_ .f32 := constant S_ .f32 0x7F800000#32
  let main_v35 : FVec F S1024x600 .f32 := broadcastInDim S1024x600 ![] bcast_S_S1024x600 main_cst_12
  let main_v36 : IVec S1024x600 1 := cmpf .olt main_v34 main_v35
  let main_c_13 : IVec S_ 1 := constantI S_ 1 1#1
  let main_v37 : IVec S_ 1 := (fun x v => Host.reduce IntOp.andi x v reducesTo_S1024x600_S_d0_1 h_S_) main_v36 main_c_13
  let main_v38 : IVec S_ 1 := andi main_v33 main_v37
  let main_v39 : FVec F S600 .f32 := Host.absf main_arg10
  let main_cst_14 : FVec F S_ .f32 := constant S_ .f32 0x7F800000#32
  let main_v40 : FVec F S600 .f32 := broadcastInDim S600 ![] bcast_S_S600 main_cst_14
  let main_v41 : IVec S600 1 := cmpf .olt main_v39 main_v40
  let main_c_15 : IVec S_ 1 := constantI S_ 1 1#1
  let main_v42 : IVec S_ 1 := (fun x v => Host.reduce IntOp.andi x v reducesTo_S600_S_d0 h_S_) main_v41 main_c_15
  let main_v43 : IVec S_ 1 := andi main_v38 main_v42
  main_v43

def fn_part1 {F : FTy → Type} [FloatOps F] (main_arg6 : FVec F S1024 .f32) (main_arg7 : FVec F S1024x1024 .f32) (main_arg8 : FVec F S1024 .f32) (main_arg9 : FVec F S1024x600 .f32) (main_arg10 : FVec F S600 .f32) (main_v13 : IVec S_ 1) (main_v16 : IVec S12544x1024 1) : IVec S_ 1 :=
  let main_c_5 : IVec S_ 1 := constantI S_ 1 1#1
  let main_v17 : IVec S_ 1 := (fun x v => Host.reduce IntOp.andi x v reducesTo_S12544x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg9 main_arg10 main_v33

def fn {F : FTy → Type} [FloatOps F] (main_arg0 : FVec F S4096x256x7x7 .f32) (main_arg1 : FVec F S100 .f32) (main_arg2 : IVec S100 32) (main_arg3 : IVec S4096x2 32) (main_arg4 : FVec F S80x600 .f32) (main_arg5 : FVec F S12544x1024 .f32) (main_arg6 : FVec F S1024 .f32) (main_arg7 : FVec F S1024x1024 .f32) (main_arg8 : FVec F S1024 .f32) (main_arg9 : FVec F S1024x600 .f32) (main_arg10 : FVec F S600 .f32) : IVec S_ 1 :=
  let main_v0 : FVec F S4096x256x7x7 .f32 := Host.absf main_arg0
  let main_cst : FVec F S_ .f32 := constant S_ .f32 0x7F800000#32
  let main_v1 : FVec F S4096x256x7x7 .f32 := broadcastInDim S4096x256x7x7 ![] bcast_S_S4096x256x7x7 main_cst
  let main_v2 : IVec S4096x256x7x7 1 := cmpf .olt main_v0 main_v1
  let main_c : IVec S_ 1 := constantI S_ 1 1#1
  let main_v3 : IVec S_ 1 := (fun x v => Host.reduce IntOp.andi x v reducesTo_S4096x256x7x7_S_d0_1_2_3 h_S_) main_v2 main_c
  let main_v4 : FVec F S100 .f32 := Host.absf main_arg1
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_v9 : FVec F S80x600 .f32 := Host.absf main_arg4
  let main_cst_2 : FVec F S_ .f32 := constant S_ .f32 0x7F800000#32
  let main_v10 : FVec F S80x600 .f32 := broadcastInDim S80x600 ![] bcast_S_S80x600 main_cst_2
  let main_v11 : IVec S80x600 1 := cmpf .olt main_v9 main_v10
  let main_c_3 : IVec S_ 1 := constantI S_ 1 1#1
  let main_v12 : IVec S_ 1 := (fun x v => Host.reduce IntOp.andi x v reducesTo_S80x600_S_d0_1 h_S_) main_v11 main_c_3
  let main_v13 : IVec S_ 1 := andi main_v8 main_v12
  let main_v14 : FVec F S12544x1024 .f32 := Host.absf main_arg5
  let main_cst_4 : FVec F S_ .f32 := constant S_ .f32 0x7F800000#32
  let main_v15 : FVec F S12544x1024 .f32 := broadcastInDim S12544x1024 ![] bcast_S_S12544x1024 main_cst_4
  let main_v16 : IVec S12544x1024 1 := cmpf .olt main_v14 main_v15
  fn_part1 (F := F) main_arg6 main_arg7 main_arg8 main_arg9 main_arg10 main_v13 main_v16
-- ==== Kernel.lean ====
abbrev S4096x256x7x7 : Shape := ⟨4, ![4096, 256, 7, 7]⟩
abbrev S100 : Shape := ⟨1, ![100]⟩
abbrev S4096x2 : Shape := ⟨2, ![4096, 2]⟩
abbrev S80x600 : Shape := ⟨2, ![80, 600]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S4096x1 : Shape := ⟨2, ![4096, 1]⟩
abbrev S4096 : Shape := ⟨1, ![4096]⟩
abbrev S_ : Shape := ⟨0, ![]⟩
abbrev S4096x600 : Shape := ⟨2, ![4096, 600]⟩
abbrev S4096x12544 : Shape := ⟨2, ![4096, 12544]⟩
abbrev S64x12544 : Shape := ⟨2, ![64, 12544]⟩
abbrev S64x600 : Shape := ⟨2, ![64, 600]⟩
abbrev S64x1024 : Shape := ⟨2, ![64, 1024]⟩
abbrev S1x1024 : Shape := ⟨2, ![1, 1024]⟩
abbrev S1x600 : Shape := ⟨2, ![1, 600]⟩

abbrev nBuf : Space → Nat
  | .hbm => 60
  | .vmem => 12
  | .smem => 0
  | _ => 0

abbrev bufTy : (tb : Table) → Fin (tcTables nBuf tb) → BufTy
  | .hbm, ⟨0, _⟩ => ⟨S4096x256x7x7, .f32⟩
  | .hbm, ⟨1, _⟩ => ⟨S100, .f32⟩
  | .hbm, ⟨2, _⟩ => ⟨S100, .i32⟩
  | .hbm, ⟨3, _⟩ => ⟨S4096x2, .i32⟩
  | .hbm, ⟨4, _⟩ => ⟨S80x600, .f32⟩
  | .hbm, ⟨5, _⟩ => ⟨S12544x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x600, .f32⟩
  | .hbm, ⟨10, _⟩ => ⟨S600, .f32⟩
  | .hbm, ⟨11, _⟩ => ⟨S4096x1, .i32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x600, .f32⟩
  | .hbm, ⟨53, _⟩ => ⟨S4096x600, .f32⟩
  | .hbm, ⟨54, _⟩ => ⟨S4096x600, .f32⟩
  | .hbm, ⟨55, _⟩ => ⟨S4096x12544, .f32⟩
  | .hbm, ⟨56, _⟩ => ⟨S12544x1024, .bf16⟩
  | .hbm, ⟨57, _⟩ => ⟨S1024x1024, .bf16⟩
  | .hbm, ⟨58, _⟩ => ⟨S1024x600, .bf16⟩
  | .hbm, ⟨59, _⟩ => ⟨S4096x600, .f32⟩
  | .local _ .vmem, ⟨0, _⟩ => ⟨S64x12544, .f32⟩
  | .local _ .vmem, ⟨1, _⟩ => ⟨S64x12544, .f32⟩
  | .local _ .vmem, ⟨2, _⟩ => ⟨S64x600, .f32⟩
  | .local _ .vmem, ⟨3, _⟩ => ⟨S64x600, .f32⟩
  | .local _ .vmem, ⟨4, _⟩ => ⟨S12544x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x600, .bf16⟩
  | .local _ .vmem, ⟨9, _⟩ => ⟨S600, .f32⟩
  | .local _ .vmem, ⟨10, _⟩ => ⟨S64x600, .f32⟩
  | .local _ .vmem, ⟨11, _⟩ => ⟨S64x600, .f32⟩
  | _, _ => ⟨S4096x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12544x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x600 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S600 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x600 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x600_0_1 : S4096x1.BroadcastsInDim S4096x600 (![0, 1] : Fin 2 → Fin S4096x600.rank)
  shapeCasts_S4096x256x7x7_S4096x12544 : S4096x256x7x7.ShapeCasts S4096x12544
  bitsLt_bf16_f32 : FTy.bits .bf16 < FTy.bits .f32
  inb_S64x12544_S64x12544_0_0 : ∀ a, (![0, 0] : Fin 2 → Nat) a + S64x12544.size a ≤ S64x12544.size a
  h_S64x12544 : 0 < S64x12544.numel
  shapeCasts_S64x12544_S64x12544 : S64x12544.ShapeCasts S64x12544
  inb_S12544x1024_S12544x1024_0_0 : ∀ a, (![0, 0] : Fin 2 → Nat) a + S12544x1024.size a ≤ S12544x1024.size a
  h_S12544x1024 : 0 < S12544x1024.numel
  shapeCasts_S12544x1024_S12544x1024 : S12544x1024.ShapeCasts S12544x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x600_S1024x600_0_0 : ∀ a, (![0, 0] : Fin 2 → Nat) a + S1024x600.size a ≤ S1024x600.size a
  h_S1024x600 : 0 < S1024x600.numel
  shapeCasts_S1024x600_S1024x600 : S1024x600.ShapeCasts S1024x600
  inb_S600_S600_0 : ∀ a, (![0] : Fin 1 → Nat) a + S600.size a ≤ S600.size a
  h_S600 : 0 < S600.numel
  shapeCasts_S600_S1x600 : S600.ShapeCasts S1x600
  broadcasts_S1x600_S64x600 : S1x600.Broadcasts S64x600
  inb_S64x600_S64x600_0_0 : ∀ a, (![0, 0] : Fin 2 → Nat) a + S64x600.size a ≤ S64x600.size a
  h_S64x600 : 0 < S64x600.numel
  shapeCasts_S64x600_S64x600 : S64x600.ShapeCasts S64x600
  gather_S100_S4096x1_S4096_n_0_n_n_0_1_1_wf : GatherDims.WF S100 S4096x1 S4096 [] [0] [] [0] [] 1 ![1]
  gather_S80x600_S4096x1_S4096x600_1_0_n_n_0_1_1600_wf : GatherDims.WF S80x600 S4096x1 S4096x600 [1] [0] [] [0] [] 1 ![1, 600]
  dot_S64x12544_S12544x1024_S64x1024_1_0_0_1_n_n_wf : DotDims.WF S64x12544 S12544x1024 S64x1024 [1] [0] [0] [1] [] []
  dot_S64x1024_S1024x1024_S64x1024_1_0_0_1_n_n_wf : DotDims.WF S64x1024 S1024x1024 S64x1024 [1] [0] [0] [1] [] []
  dot_S64x1024_S1024x600_S64x600_1_0_0_1_n_n_wf : DotDims.WF S64x1024 S1024x600 S64x600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x12544.size a ≤ S4096x12544.size a
  hwx0_0 : ∀ i : grid0.Coords, EltTy.bits .f32 = 32 ∨ (Rect.block (s := S4096x12544) S64x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x600.size a ≤ S4096x600.size a
  hwx0_1 : ∀ i : grid0.Coords, EltTy.bits .f32 = 32 ∨ (Rect.block (s := S4096x600) S64x600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12544x1024.size a ≤ S12544x1024.size a
  hwx0_2 : ∀ i : grid0.Coords, EltTy.bits .bf16 = 32 ∨ (Rect.block (s := S12544x1024) S12544x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x600.size a ≤ S1024x600.size a
  hwx0_6 : ∀ i : grid0.Coords, EltTy.bits .bf16 = 32 ∨ (Rect.block (s := S1024x600) S1024x600.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S600.size a ≤ S600.size a
  hwx0_7 : ∀ i : grid0.Coords, EltTy.bits .f32 = 32 ∨ (Rect.block (s := S600) S600.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x600.size a ≤ S4096x600.size a
  hwx0_8 : ∀ i : grid0.Coords, EltTy.bits .f32 = 32 ∨ (Rect.block (s := S4096x600) S64x600.size (cc0_transform_8 i) (hinb0_8 i)).WholeWords (EltTy.packing .f32)

variable [Facts₀]

def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf
def gather_S80x600_S4096x1_S4096x600_1_0_n_n_0_1_1600 : GatherDims S80x600 S4096x1 S4096x600 where
  offsetDims := [1]
  collapsedSliceDims := [0]
  operandBatchingDims := []
  startIndicesBatchingDims := []
  startIndexMap := [0]
  indexVectorDim := 1
  sliceSizes := ![1, 600]
  wf := gather_S80x600_S4096x1_S4096x600_1_0_n_n_0_1_1600_wf
def dot_S64x12544_S12544x1024_S64x1024_1_0_0_1_n_n : DotDims S64x12544 S12544x1024 S64x1024 where
  lhsContracting := [1]
  rhsContracting := [0]
  lhsNonContracting := [0]
  rhsNonContracting := [1]
  lhsBatch := []
  rhsBatch := []
  wf := dot_S64x12544_S12544x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x600_S64x600_1_0_0_1_n_n : DotDims S64x1024 S1024x600 S64x600 where
  lhsContracting := [1]
  rhsContracting := [0]
  lhsNonContracting := [0]
  rhsNonContracting := [1]
  lhsBatch := []
  rhsBatch := []
  wf := dot_S64x1024_S1024x600_S64x600_1_0_0_1_n_n_wf

abbrev win0_0 : Pipeline.Window sig grid0 :=
  Pipeline.Window.ofSpec (Memref.whole main_v36) S64x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S64x600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S12544x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1024x600.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S600.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S64x600.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x256x7x7 : Shape := ⟨4, ![4096, 256, 7, 7]⟩
abbrev S100 : Shape := ⟨1, ![100]⟩
abbrev S4096x2 : Shape := ⟨2, ![4096, 2]⟩
abbrev S80x600 : Shape := ⟨2, ![80, 600]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S4096x1 : Shape := ⟨2, ![4096, 1]⟩
abbrev S4096 : Shape := ⟨1, ![4096]⟩
abbrev S_ : Shape := ⟨0, ![]⟩
abbrev S4096x600 : Shape := ⟨2, ![4096, 600]⟩
abbrev S4096x12544 : Shape := ⟨2, ![4096, 12544]⟩
abbrev S4096x1024 : Shape := ⟨2, ![4096, 1024]⟩
abbrev S1x1024 : Shape := ⟨2, ![1, 1024]⟩
abbrev S1x600 : Shape := ⟨2, ![1, 600]⟩

abbrev nBuf : Space → Nat
  | .hbm => 83
  | .vmem => 0
  | .smem => 0
  | _ => 0

abbrev bufTy : (tb : Table) → Fin (tcTables nBuf tb) → BufTy
  | .hbm, ⟨0, _⟩ => ⟨S4096x256x7x7, .f32⟩
  | .hbm, ⟨1, _⟩ => ⟨S100, .f32⟩
  | .hbm, ⟨2, _⟩ => ⟨S100, .i32⟩
  | .hbm, ⟨3, _⟩ => ⟨S4096x2, .i32⟩
  | .hbm, ⟨4, _⟩ => ⟨S80x600, .f32⟩
  | .hbm, ⟨5, _⟩ => ⟨S12544x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x600, .f32⟩
  | .hbm, ⟨10, _⟩ => ⟨S600, .f32⟩
  | .hbm, ⟨11, _⟩ => ⟨S4096x1, .i32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x600, .f32⟩
  | .hbm, ⟨53, _⟩ => ⟨S4096x600, .f32⟩
  | .hbm, ⟨54, _⟩ => ⟨S4096x600, .f32⟩
  | .hbm, ⟨55, _⟩ => ⟨S4096x12544, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x600, .f32⟩
  | .hbm, ⟨71, _⟩ => ⟨S1x600, .f32⟩
  | .hbm, ⟨72, _⟩ => ⟨S4096x600, .f32⟩
  | .hbm, ⟨73, _⟩ => ⟨S4096x600, .f32⟩
  | .hbm, ⟨74, _⟩ => ⟨S4096x600, .f32⟩
  | .hbm, ⟨75, _⟩ => ⟨S4096x600, .f32⟩
  | .hbm, ⟨76, _⟩ => ⟨S_, .f32⟩
  | .hbm, ⟨77, _⟩ => ⟨S4096x600, .f32⟩
  | .hbm, ⟨78, _⟩ => ⟨S4096x600, .f32⟩
  | .hbm, ⟨79, _⟩ => ⟨S_, .f32⟩
  | .hbm, ⟨80, _⟩ => ⟨S4096x600, .f32⟩
  | .hbm, ⟨81, _⟩ => ⟨S4096x600, .f32⟩
  | .hbm, ⟨82, _⟩ => ⟨S4096x600, .f32⟩
  | _, _ => ⟨S4096x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x600_0_1 : S4096x1.BroadcastsInDim S4096x600 (![0, 1] : Fin 2 → Fin S4096x600.rank)
  shapeCasts_S4096x256x7x7_S4096x12544 : S4096x256x7x7.ShapeCasts S4096x12544
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S600_S1x600_1 : S600.BroadcastsInDim S1x600 (![1] : Fin 1 → Fin S1x600.rank)
  bcast_S1x600_S4096x600_0_1 : S1x600.BroadcastsInDim S4096x600 (![0, 1] : Fin 2 → Fin S4096x600.rank)
  bcast_S_S4096x600 : S_.BroadcastsInDim S4096x600 (![] : Fin 0 → Fin S4096x600.rank)
  gather_S100_S4096x1_S4096_n_0_n_n_0_1_1_wf : GatherDims.WF S100 S4096x1 S4096 [] [0] [] [0] [] 1 ![1]
  gather_S80x600_S4096x1_S4096x600_1_0_n_n_0_1_1600_wf : GatherDims.WF S80x600 S4096x1 S4096x600 [1] [0] [] [0] [] 1 ![1, 600]
  dot_S4096x12544_S12544x1024_S4096x1024_1_0_0_1_n_n_wf : DotDims.WF S4096x12544 S12544x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x600_S4096x600_1_0_0_1_n_n_wf : DotDims.WF S4096x1024 S1024x600 S4096x600 [1] [0] [0] [1] [] []

variable [Facts₀]

def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf
def gather_S80x600_S4096x1_S4096x600_1_0_n_n_0_1_1600 : GatherDims S80x600 S4096x1 S4096x600 where
  offsetDims := [1]
  collapsedSliceDims := [0]
  operandBatchingDims := []
  startIndicesBatchingDims := []
  startIndexMap := [0]
  indexVectorDim := 1
  sliceSizes := ![1, 600]
  wf := gather_S80x600_S4096x1_S4096x600_1_0_n_n_0_1_1600_wf
def dot_S4096x12544_S12544x1024_S4096x1024_1_0_0_1_n_n : DotDims S4096x12544 S12544x1024 S4096x1024 where
  lhsContracting := [1]
  rhsContracting := [0]
  lhsNonContracting := [0]
  rhsNonContracting := [1]
  lhsBatch := []
  rhsBatch := []
  wf := dot_S4096x12544_S12544x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x600_S4096x600_1_0_0_1_n_n : DotDims S4096x1024 S1024x600 S4096x600 where
  lhsContracting := [1]
  rhsContracting := [0]
  lhsNonContracting := [0]
  rhsNonContracting := [1]
  lhsBatch := []
  rhsBatch := []
  wf := dot_S4096x1024_S1024x600_S4096x600_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«121794_j13185549599248_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«121794_j13185549599248_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.PairScores.lean ====
/-
  Interaction scores of box pairs, as one function of the arrays.

  Each of `a` box pairs has a feature row `x r` of length `K₁` and a prior row `prior r` over `C` interaction
  classes. A three-layer perceptron turns the feature row into logits,

      logits = relu (relu (x · W₁ + b₁) · W₂ + b₂) · W₃ + b₃,

  and the score of pair `r` for class `q` is `prior (r, q) · σ (logits (r, q))`, with `σ z = 1 / (1 + e⁻ᶻ)` the
  logistic function on the extended reals. Every layer is a row product plus a bias, so the logits of pair `r`
  depend on the features only through row `r` (`logits_congr`), and the score only through rows `r` of the features
  and of the prior (`scores_congr`): the function reads the same on a block of pairs and on all of them.
-/
import proofs.«121794_j13185549599248_1_alg».proof.Proof.LibBiasLayer

noncomputable section

namespace Cert.PairScores

open Idealize.ShloMosaic Idealize.ShloMosaic.ValueIdx Cert.DenseLayer Cert.BiasLayer

variable {a K₁ H₁ H₂ C : ℕ}

/-- The perceptron's logits: two clamped layers and a plain one. -/
def logits (x : Mat a K₁) (W₁ : Mat K₁ H₁) (b₁ : Row H₁) (W₂ : Mat H₁ H₂) (b₂ : Row H₂) (W₃ : Mat H₂ C) (b₃ : Row C) :
    Mat a C :=
  affine (reluAffine (reluAffine x W₁ b₁) W₂ b₂) W₃ b₃

/-- The scores: the prior times the logistic function of the logits, entry by entry. -/
def scores (prior : Mat a C) (x : Mat a K₁) (W₁ : Mat K₁ H₁) (b₁ : Row H₁) (W₂ : Mat H₁ H₂) (b₂ : Row H₂)
    (W₃ : Mat H₂ C) (b₃ : Row C) : Mat a C :=
  fun i => prior i * Ideal.logistic (logits x W₁ b₁ W₂ b₂ W₃ b₃ i)

theorem scores_apply (prior : Mat a C) (x : Mat a K₁) (W₁ : Mat K₁ H₁) (b₁ : Row H₁) (W₂ : Mat H₁ H₂) (b₂ : Row H₂)
    (W₃ : Mat H₂ C) (b₃ : Row C) (i : (⟨2, ![a, C]⟩ : Shape).Idx) :
    scores prior x W₁ b₁ W₂ b₂ W₃ b₃ i = prior i * Ideal.logistic (logits x W₁ b₁ W₂ b₂ W₃ b₃ i) := rfl

/-- The logits of a pair depend on the features only through that pair's row: feature matrices of any two heights
    that agree along a row of each give the same logits there. -/
theorem logits_congr {a' : ℕ} (x : Mat a K₁) (x' : Mat a' K₁) (W₁ : Mat K₁ H₁) (b₁ : Row H₁) (W₂ : Mat H₁ H₂)
    (b₂ : Row H₂) (W₃ : Mat H₂ C) (b₃ : Row C) (r : Fin a) (r' : Fin a')
    (h : ∀ k, x (ix2 r k) = x' (ix2 r' k)) (q : Fin C) :
    logits x W₁ b₁ W₂ b₂ W₃ b₃ (ix2 r q) = logits x' W₁ b₁ W₂ b₂ W₃ b₃ (ix2 r' q) :=
  affine_congr _ _ W₃ b₃ r r'
    (fun k => reluAffine_congr _ _ W₂ b₂ r r' (fun k' => reluAffine_congr x x' W₁ b₁ r r' h k') k) q

/-- The score of a pair for a class depends on the prior only at that entry and on the features only through the
    pair's row; the weights and biases may be given as any arrays equal to the ones on the other side. -/
theorem scores_congr {a' : ℕ} (prior : Mat a C) (prior' : Mat a' C) (x : Mat a K₁) (x' : Mat a' K₁)
    (W₁ W₁' : Mat K₁ H₁) (b₁ b₁' : Row H₁) (W₂ W₂' : Mat H₁ H₂) (b₂ b₂' : Row H₂) (W₃ W₃' : Mat H₂ C) (b₃ b₃' : Row C)
    (r : Fin a) (r' : Fin a') (q : Fin C)
    (hp : prior (ix2 r q) = prior' (ix2 r' q)) (hx : ∀ k, x (ix2 r k) = x' (ix2 r' k))
    (hW₁ : W₁ = W₁') (hb₁ : b₁ = b₁') (hW₂ : W₂ = W₂') (hb₂ : b₂ = b₂') (hW₃ : W₃ = W₃') (hb₃ : b₃ = b₃') :
    scores prior x W₁ b₁ W₂ b₂ W₃ b₃ (ix2 r q) = scores prior' x' W₁' b₁' W₂' b₂' W₃' b₃' (ix2 r' q) := by
  subst hW₁ hb₁ hW₂ hb₂ hW₃ hb₃
  rw [scores_apply, scores_apply, hp, logits_congr x x' W₁ b₁ W₂ b₂ W₃ b₃ r r' hx q]

end Cert.PairScores

end
-- ==== Proof.KernelBlock.lean ====
/-
  One block of 64 box pairs through the kernel body.

  The body loads a block of 64 feature rows, the block's 64 prior rows, and the three weight matrices and biases
  whole; it multiplies into zero accumulators, adds each bias laid over the 64 rows, clamps the two hidden layers at
  zero, and stores the prior times the logistic function of the logits. The changes of float format on the way are
  the identity on extended reals, and a shape cast to the same shape is the identity. So the value stored at row `p`
  and class `q` of the block is the score function of the loaded arrays at `(p, q)` (`stored_apply`).

  Each of the three matrix products contracts the second axis of its left operand with the first axis of its right
  operand and has no batch axes (`plain₁`, `plain₂`, `plain₃`), which is what reads it as a row product.
-/
import proofs.«121794_j13185549599248_1_alg».proof.Proof.Gen.KernelIdeal.Skeleton
import proofs.«121794_j13185549599248_1_alg».proof.Proof.PairScores

noncomputable section

namespace Cert.KernelIdeal.Block

open Idealize.ShloMosaic Idealize.ShloMosaic.ValueIdx Cert.KernelIdeal Cert.KernelIdeal.Gen
open Cert.DenseLayer Cert.BiasLayer Cert.PairScores

/-! ## The three products are plain: `[64, K] × [K, N]`, one contracted axis -/

theorem lhs₁_0 (i : S64x1024.Idx) (q : dot_S64x12544_S12544x1024_S64x1024_1_0_0_1_n_n.contr.Idx) :
    (dot_S64x12544_S12544x1024_S64x1024_1_0_0_1_n_n.lhsIdx i q 0).val = (i 0).val := by
  unfold DotDims.lhsIdx
  rw [dif_neg (show ¬(0 : Fin S64x12544.rank) ∈ dot_S64x12544_S12544x1024_S64x1024_1_0_0_1_n_n.lhsBatch by decide), dif_pos (show (0 : Fin S64x12544.rank) ∈ dot_S64x12544_S12544x1024_S64x1024_1_0_0_1_n_n.lhsNonContracting by decide)]
  rfl
theorem lhs₁_1 (i : S64x1024.Idx) (q : dot_S64x12544_S12544x1024_S64x1024_1_0_0_1_n_n.contr.Idx) :
    (dot_S64x12544_S12544x1024_S64x1024_1_0_0_1_n_n.lhsIdx i q 1).val = (q ⟨0, by decide⟩).val :=
  dot_S64x12544_S12544x1024_S64x1024_1_0_0_1_n_n.lhsIdx_val_of_single rfl i q
theorem rhs₁_0 (i : S64x1024.Idx) (q : dot_S64x12544_S12544x1024_S64x1024_1_0_0_1_n_n.contr.Idx) :
    (dot_S64x12544_S12544x1024_S64x1024_1_0_0_1_n_n.rhsIdx i q 0).val = (q ⟨0, by decide⟩).val :=
  dot_S64x12544_S12544x1024_S64x1024_1_0_0_1_n_n.rhsIdx_val_of_single rfl i q
theorem rhs₁_1 (i : S64x1024.Idx) (q : dot_S64x12544_S12544x1024_S64x1024_1_0_0_1_n_n.contr.Idx) :
    (dot_S64x12544_S12544x1024_S64x1024_1_0_0_1_n_n.rhsIdx i q 1).val = (i 1).val := by
  unfold DotDims.rhsIdx
  rw [dif_neg (show ¬(1 : Fin S12544x1024.rank) ∈ dot_S64x12544_S12544x1024_S64x1024_1_0_0_1_n_n.rhsBatch by decide), dif_pos (show (1 : Fin S12544x1024.rank) ∈ dot_S64x12544_S12544x1024_S64x1024_1_0_0_1_n_n.rhsNonContracting by decide)]
  rfl

/-- The first product, features times `W₁`: `[64, 12544] × [12544, 1024]`. -/
theorem plain₁ : PlainDot (a := 64) (K := 12544) (N := 1024) dot_S64x12544_S12544x1024_S64x1024_1_0_0_1_n_n :=
  ⟨rfl, rfl, lhs₁_0, lhs₁_1, rhs₁_0, rhs₁_1⟩

theorem lhs₂_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem lhs₂_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
theorem rhs₂_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
theorem rhs₂_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- The second product, first hidden layer times `W₂`: `[64, 1024] × [1024, 1024]`. -/
theorem plain₂ : PlainDot (a := 64) (K := 1024) (N := 1024) dot_S64x1024_S1024x1024_S64x1024_1_0_0_1_n_n :=
  ⟨rfl, rfl, lhs₂_0, lhs₂_1, rhs₂_0, rhs₂_1⟩

theorem lhs₃_0 (i : S64x600.Idx) (q : dot_S64x1024_S1024x600_S64x600_1_0_0_1_n_n.contr.Idx) :
    (dot_S64x1024_S1024x600_S64x600_1_0_0_1_n_n.lhsIdx i q 0).val = (i 0).val := by
  unfold DotDims.lhsIdx
  rw [dif_neg (show ¬(0 : Fin S64x1024.rank) ∈ dot_S64x1024_S1024x600_S64x600_1_0_0_1_n_n.lhsBatch by decide), dif_pos (show (0 : Fin S64x1024.rank) ∈ dot_S64x1024_S1024x600_S64x600_1_0_0_1_n_n.lhsNonContracting by decide)]
  rfl
theorem lhs₃_1 (i : S64x600.Idx) (q : dot_S64x1024_S1024x600_S64x600_1_0_0_1_n_n.contr.Idx) :
    (dot_S64x1024_S1024x600_S64x600_1_0_0_1_n_n.lhsIdx i q 1).val = (q ⟨0, by decide⟩).val :=
  dot_S64x1024_S1024x600_S64x600_1_0_0_1_n_n.lhsIdx_val_of_single rfl i q
theorem rhs₃_0 (i : S64x600.Idx) (q : dot_S64x1024_S1024x600_S64x600_1_0_0_1_n_n.contr.Idx) :
    (dot_S64x1024_S1024x600_S64x600_1_0_0_1_n_n.rhsIdx i q 0).val = (q ⟨0, by decide⟩).val :=
  dot_S64x1024_S1024x600_S64x600_1_0_0_1_n_n.rhsIdx_val_of_single rfl i q
theorem rhs₃_1 (i : S64x600.Idx) (q : dot_S64x1024_S1024x600_S64x600_1_0_0_1_n_n.contr.Idx) :
    (dot_S64x1024_S1024x600_S64x600_1_0_0_1_n_n.rhsIdx i q 1).val = (i 1).val := by
  unfold DotDims.rhsIdx
  rw [dif_neg (show ¬(1 : Fin S1024x600.rank) ∈ dot_S64x1024_S1024x600_S64x600_1_0_0_1_n_n.rhsBatch by decide), dif_pos (show (1 : Fin S1024x600.rank) ∈ dot_S64x1024_S1024x600_S64x600_1_0_0_1_n_n.rhsNonContracting by decide)]
  rfl

/-- The third product, second hidden layer times `W₃`: `[64, 1024] × [1024, 600]`. -/
theorem plain₃ : PlainDot (a := 64) (K := 1024) (N := 600) dot_S64x1024_S1024x600_S64x600_1_0_0_1_n_n :=
  ⟨rfl, rfl, lhs₃_0, lhs₃_1, rhs₃_0, rhs₃_1⟩

/-! ## The body's three layers, as the body spells them -/

section Spelled

variable {F : FTy → Type} [FloatOps F]

/-- The first hidden layer as the body computes it from the loaded feature block, `W₁` and `b₁`. -/
def hidden₁ (v0 : Vec F S64x12544 .f32) (v3 : Vec F S12544x1024 .bf16) (v6 : Vec F S1024 .f32) :
    FVec F S64x1024 .f32 :=
  maximumf
    (addf
      (matmul dot_S64x12544_S12544x1024_S64x1024_1_0_0_1_n_n none
        (truncf .bf16 (shapeCast S64x12544 v0 shapeCasts_S64x12544_S64x12544 : FVec F S64x12544 .f32) bitsLt_bf16_f32)
        (shapeCast S12544x1024 v3 shapeCasts_S12544x1024_S12544x1024 : FVec F S12544x1024 .bf16)
        (constant S64x1024 .f32 0x00000000#32))
      (broadcastTo S64x1024 (shapeCast S1x1024 v6 shapeCasts_S1024_S1x1024 : FVec F S1x1024 .f32)
        broadcasts_S1x1024_S64x1024))
    (broadcast S64x1024 (Scalar.ofBits .f32 0x00000000#32))

/-- The second hidden layer as the body computes it from a first hidden layer `y`, `W₂` and `b₂`. -/
def hidden₂ (y : FVec F S64x1024 .f32) (v13 : Vec F S1024x1024 .bf16) (v16 : Vec F S1024 .f32) :
    FVec F S64x1024 .f32 :=
  maximumf
    (addf
      (matmul dot_S64x1024_S1024x1024_S64x1024_1_0_0_1_n_n none (truncf .bf16 y bitsLt_bf16_f32)
        (shapeCast S1024x1024 v13 shapeCasts_S1024x1024_S1024x1024 : FVec F S1024x1024 .bf16)
        (constant S64x1024 .f32 0x00000000#32))
      (broadcastTo S64x1024 (shapeCast S1x1024 v16 shapeCasts_S1024_S1x1024 : FVec F S1x1024 .f32)
        broadcasts_S1x1024_S64x1024))
    (broadcast S64x1024 (Scalar.ofBits .f32 0x00000000#32))

/-- The logits as the body computes them from a second hidden layer `y`, `W₃` and `b₃`. -/
def outLogits (y : FVec F S64x1024 .f32) (v23 : Vec F S1024x600 .bf16) (v26 : Vec F S600 .f32) :
    FVec F S64x600 .f32 :=
  addf
    (matmul dot_S64x1024_S1024x600_S64x600_1_0_0_1_n_n none (truncf .bf16 y bitsLt_bf16_f32)
      (shapeCast S1024x600 v23 shapeCasts_S1024x600_S1024x600 : FVec F S1024x600 .bf16)
      (constant S64x600 .f32 0x00000000#32))
    (broadcastTo S64x600 (shapeCast S1x600 v26 shapeCasts_S600_S1x600 : FVec F S1x600 .f32) broadcasts_S1x600_S64x600)

/-- The stored value is the prior block times the logistic function of those logits: the body's own text. -/
theorem stored_eq (v0 : Vec F S64x12544 .f32) (v3 : Vec F S12544x1024 .bf16) (v6 : Vec F S1024 .f32)
    (v13 : Vec F S1024x1024 .bf16) (v16 : Vec F S1024 .f32) (v23 : Vec F S1024x600 .bf16)
    (v26 : Vec F S600 .f32) (v30 : Vec F S64x600 .f32) :
    k0_pay1 v0 v3 v6 v13 v16 v23 v26 v30
      = mulf (shapeCast S64x600 v30 shapeCasts_S64x600_S64x600 : FVec F S64x600 .f32)
          (logistic (outLogits (hidden₂ (hidden₁ v0 v3 v6) v13 v16) v23 v26)) := rfl

end Spelled

/-! ## Each layer read at an entry -/

theorem hidden₁_apply (v0 : Vec Ideal S64x12544 .f32) (v3 : Vec Ideal S12544x1024 .bf16) (v6 : Vec Ideal S1024 .f32)
    (p : Fin 64) (k : Fin 1024) : hidden₁ v0 v3 v6 (ix2 p k) = reluAffine v0 v3 v6 (ix2 p k) := by
  unfold hidden₁
  refine (vector_reluAffine_apply _ _ v6 plain₁ none _ _ p k).trans ?_
  rw [shapeCast_self, shapeCast_self]
  rfl

theorem hidden₂_apply (y : FVec Ideal S64x1024 .f32) (v13 : Vec Ideal S1024x1024 .bf16) (v16 : Vec Ideal S1024 .f32)
    (p : Fin 64) (k : Fin 1024) : hidden₂ y v13 v16 (ix2 p k) = reluAffine y v13 v16 (ix2 p k) := by
  unfold hidden₂
  refine (vector_reluAffine_apply _ _ v16 plain₂ none _ _ p k).trans ?_
  rw [shapeCast_self]
  rfl

theorem outLogits_apply (y : FVec Ideal S64x1024 .f32) (v23 : Vec Ideal S1024x600 .bf16) (v26 : Vec Ideal S600 .f32)
    (p : Fin 64) (q : Fin 600) : outLogits y v23 v26 (ix2 p q) = affine y v23 v26 (ix2 p q) := by
  unfold outLogits
  refine (vector_affine_apply _ _ v26 plain₃ none _ _ p q).trans ?_
  rw [shapeCast_self]
  rfl

/-! ## The stored block -/

/-- What the body stores at row `p`, class `q` of the block: the score function of the loaded arrays there. -/
theorem stored_apply (v0 : Vec Ideal S64x12544 .f32) (v3 : Vec Ideal S12544x1024 .bf16) (v6 : Vec Ideal S1024 .f32)
    (v13 : Vec Ideal S1024x1024 .bf16) (v16 : Vec Ideal S1024 .f32) (v23 : Vec Ideal S1024x600 .bf16)
    (v26 : Vec Ideal S600 .f32) (v30 : Vec Ideal S64x600 .f32) (p : Fin 64) (q : Fin 600) :
    k0_pay1 v0 v3 v6 v13 v16 v23 v26 v30 (ix2 p q) = scores v30 v0 v3 v6 v13 v16 v23 v26 (ix2 p q) := by
  rw [stored_eq, shapeCast_self]
  show v30 (ix2 p q) * Ideal.logistic (outLogits (hidden₂ (hidden₁ v0 v3 v6) v13 v16) v23 v26 (ix2 p q)) = _
  rw [outLogits_apply, scores_apply]
  refine congrArg (fun z => v30 (ix2 p q) * Ideal.logistic z) ?_
  exact affine_congr (hidden₂ (hidden₁ v0 v3 v6) v13 v16) (reluAffine (reluAffine v0 v3 v6) v13 v16) v23 v26 p p
    (fun k => (hidden₂_apply (hidden₁ v0 v3 v6) v13 v16 p k).trans
      (reluAffine_congr (hidden₁ v0 v3 v6) (reluAffine v0 v3 v6) v13 v16 p p (fun k' => hidden₁_apply v0 v3 v6 p k') k)) q

end Cert.KernelIdeal.Block

end
-- ==== Proof.KernelArray.lean ====
/-
  From blocks of 64 box pairs to the whole result array.

  The kernel runs on a grid of 64 points. Point `t` is given rows `64·t … 64·t + 63` of the flattened features and of
  the prior, and the three weight matrices and three biases whole (their block index is zero on every axis at every
  point); it writes rows `64·t … 64·t + 63` of the result. What it writes at row `p`, class `q` of its block is the
  score function of its blocks at `(p, q)`, and the score of a pair depends on the features and the prior only through
  that pair's rows: so point `t` writes block `t` of ONE whole-array function, the score function of the arrays as the
  kernel region finds them (`wholeScores`, `written_eq`). The 64 blocks of 64 rows cover the 4096 rows — row `r` lies in
  the block of point `r / 64` — so after the run the result array is that function (`final_eq`, `run`).
-/
import proofs.«121794_j13185549599248_1_alg».proof.Proof.Gen.KernelIdeal.Value
import proofs.«121794_j13185549599248_1_alg».proof.Proof.KernelBlock

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelIdeal.Block Cert.PairScores

variable (m : (ℓ : Loc nD τ sig) → Buf (Elt Ideal) ℓ) (ρ : Dev nD → PrngReg)

/-! ## The arrays as the kernel region finds them, and the blocks a point is given -/

abbrev priorArr (c : Dev nD) : Vec Ideal S4096x600 .f32 := V m c main_v35
abbrev featArr (c : Dev nD) : Vec Ideal S4096x12544 .f32 := V m c main_v36
abbrev w1Arr (c : Dev nD) : Vec Ideal S12544x1024 .bf16 := V m c main_v37
abbrev b1Arr (c : Dev nD) : Vec Ideal S1024 .f32 := V m c main_arg6
abbrev w2Arr (c : Dev nD) : Vec Ideal S1024x1024 .bf16 := V m c main_v38
abbrev b2Arr (c : Dev nD) : Vec Ideal S1024 .f32 := V m c main_arg8
abbrev w3Arr (c : Dev nD) : Vec Ideal S1024x600 .bf16 := V m c main_v39
abbrev b3Arr (c : Dev nD) : Vec Ideal S600 .f32 := V m c main_arg10

abbrev featBlk (c : Dev nD) (t : Fin cfg0.N) : Vec Ideal S64x12544 .f32 := iblk m c 0 t
abbrev priorBlk (c : Dev nD) (t : Fin cfg0.N) : Vec Ideal S64x600 .f32 := iblk m c 1 t
abbrev w1Blk (c : Dev nD) (t : Fin cfg0.N) : Vec Ideal S12544x1024 .bf16 := iblk m c 2 t
abbrev b1Blk (c : Dev nD) (t : Fin cfg0.N) : Vec Ideal S1024 .f32 := iblk m c 3 t
abbrev w2Blk (c : Dev nD) (t : Fin cfg0.N) : Vec Ideal S1024x1024 .bf16 := iblk m c 4 t
abbrev b2Blk (c : Dev nD) (t : Fin cfg0.N) : Vec Ideal S1024 .f32 := iblk m c 5 t
abbrev w3Blk (c : Dev nD) (t : Fin cfg0.N) : Vec Ideal S1024x600 .bf16 := iblk m c 6 t
abbrev b3Blk (c : Dev nD) (t : Fin cfg0.N) : Vec Ideal S600 .f32 := iblk m c 7 t

/-- The score function of the arrays as the region finds them: what the result array ends holding. -/
def wholeScores (c : Dev nD) : Vec Ideal S4096x600 .f32 :=
  scores (priorArr m c) (featArr m c) (w1Arr m c) (b1Arr m c) (w2Arr m c) (b2Arr m c) (w3Arr m c) (b3Arr m c)

/-! ## Where each window's block sits -/

theorem origin₂ : (![0, 0] : Fin 2 → Nat) = fun _ => 0 := funext fun a => by fin_cases a <;> rfl
theorem origin₁ : (![0] : Fin 1 → Nat) = fun _ => 0 := funext fun a => by fin_cases a; rfl

/-- The printed index maps over the 64 grid points: the feature, prior and result windows sit at block row `t`,
    block column zero; the weight and bias windows at block zero. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- Row `p` of point `t`'s block is row `64·t + p` of the array. -/
def rowOf (t : Fin cfg0.N) (p : Fin 64) : Fin 4096 :=
  ⟨64 * t.val + p.val, by have h := t.isLt; have hN : cfg0.N = 64 := N_0; have hp := p.isLt; omega⟩

/-! ## Each block read off its array -/

theorem featBlk_apply (c : Dev nD) (t : Fin cfg0.N) (p : Fin 64) (k : Fin 12544) :
    featBlk m c t (ix2 p k) = featArr m c (ix2 (rowOf t p) k) := by
  obtain ⟨e0, e1, -⟩ := block_index t
  show V m c main_v36 (((cfg0.win 0).blk t).view.emb (ix2 p k)) = V m c main_v36 (ix2 (rowOf t p) k)
  congr 1
  funext a; apply Fin.ext
  match a with
  | ⟨0, _⟩ => show win0_0.index t (0 : Fin 2) * 64 + 1 * p.val = 64 * t.val + p.val; omega
  | ⟨1, _⟩ => show win0_0.index t (1 : Fin 2) * 12544 + 1 * k.val = k.val; omega

theorem priorBlk_apply (c : Dev nD) (t : Fin cfg0.N) (p : Fin 64) (q : Fin 600) :
    priorBlk m c t (ix2 p q) = priorArr m c (ix2 (rowOf t p) q) := by
  obtain ⟨-, -, e0, e1, -⟩ := block_index t
  show V m c main_v35 (((cfg0.win 1).blk t).view.emb (ix2 p q)) = V m c main_v35 (ix2 (rowOf t p) q)
  congr 1
  funext a; apply Fin.ext
  match a with
  | ⟨0, _⟩ => show win0_1.index t (0 : Fin 2) * 64 + 1 * p.val = 64 * t.val + p.val; omega
  | ⟨1, _⟩ => show win0_1.index t (1 : Fin 2) * 600 + 1 * q.val = q.val; omega

theorem w1Blk_eq (c : Dev nD) (t : Fin cfg0.N) : w1Blk m c t = w1Arr m c := by
  obtain ⟨-, -, -, -, e0, e1, -⟩ := block_index t
  funext y
  show V m c main_v37 (((cfg0.win 2).blk t).view.emb y) = V m c main_v37 y
  congr 1
  funext a; apply Fin.ext
  match a with
  | ⟨0, _⟩ => show win0_2.index t (0 : Fin 2) * 12544 + 1 * (y 0).val = (y 0).val; omega
  | ⟨1, _⟩ => show win0_2.index t (1 : Fin 2) * 1024 + 1 * (y 1).val = (y 1).val; omega

theorem b1Blk_eq (c : Dev nD) (t : Fin cfg0.N) : b1Blk m c t = b1Arr m c := by
  obtain ⟨-, -, -, -, -, -, e0, -⟩ := block_index t
  funext y
  show V m c main_arg6 (((cfg0.win 3).blk t).view.emb y) = V m c main_arg6 y
  congr 1
  funext a; apply Fin.ext
  match a with
  | ⟨0, _⟩ => show win0_3.index t (0 : Fin 1) * 1024 + 1 * (y 0).val = (y 0).val; omega

theorem w2Blk_eq (c : Dev nD) (t : Fin cfg0.N) : w2Blk m c t = w2Arr m c := by
  obtain ⟨-, -, -, -, -, -, -, e0, e1, -⟩ := block_index t
  funext y
  show V m c main_v38 (((cfg0.win 4).blk t).view.emb y) = V m c main_v38 y
  congr 1
  funext a; apply Fin.ext
  match a with
  | ⟨0, _⟩ => show win0_4.index t (0 : Fin 2) * 1024 + 1 * (y 0).val = (y 0).val; omega
  | ⟨1, _⟩ => show win0_4.index t (1 : Fin 2) * 1024 + 1 * (y 1).val = (y 1).val; omega

theorem b2Blk_eq (c : Dev nD) (t : Fin cfg0.N) : b2Blk m c t = b2Arr m c := by
  obtain ⟨-, -, -, -, -, -, -, -, -, e0, -⟩ := block_index t
  funext y
  show V m c main_arg8 (((cfg0.win 5).blk t).view.emb y) = V m c main_arg8 y
  congr 1
  funext a; apply Fin.ext
  match a with
  | ⟨0, _⟩ => show win0_5.index t (0 : Fin 1) * 1024 + 1 * (y 0).val = (y 0).val; omega

theorem w3Blk_eq (c : Dev nD) (t : Fin cfg0.N) : w3Blk m c t = w3Arr m c := by
  obtain ⟨-, -, -, -, -, -, -, -, -, -, e0, e1, -⟩ := block_index t
  funext y
  show V m c main_v39 (((cfg0.win 6).blk t).view.emb y) = V m c main_v39 y
  congr 1
  funext a; apply Fin.ext
  match a with
  | ⟨0, _⟩ => show win0_6.index t (0 : Fin 2) * 1024 + 1 * (y 0).val = (y 0).val; omega
  | ⟨1, _⟩ => show win0_6.index t (1 : Fin 2) * 600 + 1 * (y 1).val = (y 1).val; omega

theorem b3Blk_eq (c : Dev nD) (t : Fin cfg0.N) : b3Blk m c t = b3Arr m c := by
  obtain ⟨-, -, -, -, -, -, -, -, -, -, -, -, e0, -⟩ := block_index t
  funext y
  show V m c main_arg10 (((cfg0.win 7).blk t).view.emb y) = V m c main_arg10 y
  congr 1
  funext a; apply Fin.ext
  match a with
  | ⟨0, _⟩ => show win0_7.index t (0 : Fin 1) * 600 + 1 * (y 0).val = (y 0).val; omega

/-! ## What point `t` writes is block `t` of the whole-array function -/

/-- Row `p`, class `q` of what the body stores at point `t` is the whole-array score at row `64·t + p`, class `q`. -/
theorem stored_at (c : Dev nD) (t : Fin cfg0.N) (p : Fin 64) (q : Fin 600) :
    k0_pay1 (featBlk m c t) (w1Blk m c t) (b1Blk m c t) (w2Blk m c t) (b2Blk m c t) (w3Blk m c t) (b3Blk m c t)
        (priorBlk m c t) (ix2 p q)
      = wholeScores m c (ix2 (rowOf t p) q) :=
  (stored_apply (featBlk m c t) (w1Blk m c t) (b1Blk m c t) (w2Blk m c t) (b2Blk m c t) (w3Blk m c t) (b3Blk m c t)
      (priorBlk m c t) p q).trans
    (scores_congr (priorBlk m c t) (priorArr m c) (featBlk m c t) (featArr m c) (w1Blk m c t) (w1Arr m c)
      (b1Blk m c t) (b1Arr m c) (w2Blk m c t) (w2Arr m c) (b2Blk m c t) (b2Arr m c) (w3Blk m c t) (w3Arr m c)
      (b3Blk m c t) (b3Arr m c) p (rowOf t p) q (priorBlk_apply m c t p q) (fun k => featBlk_apply m c t p k)
      (w1Blk_eq m c t) (b1Blk_eq m c t) (w2Blk_eq m c t) (b2Blk_eq m c t) (w3Blk_eq m c t) (b3Blk_eq m c t))

/-- The result window's block at point `t` embeds `(p, q)` at `(64·t + p, q)`. -/
theorem resultBlk_emb (t : Fin cfg0.N) (p : Fin 64) (q : Fin 600) :
    ((cfg0.win 8).blk t).view.emb (ix2 p q) = ix2 (rowOf t p) q := by
  obtain ⟨-, -, -, -, -, -, -, -, -, -, -, -, -, e0, e1⟩ := block_index t
  funext a; apply Fin.ext
  match a with
  | ⟨0, _⟩ => show win0_8.index t (0 : Fin 2) * 64 + 1 * p.val = 64 * t.val + p.val; omega
  | ⟨1, _⟩ => show win0_8.index t (1 : Fin 2) * 600 + 1 * q.val = q.val; omega

/-- WHAT POINT `t` WRITES BACK is block `t` of the whole-array score function. -/
theorem written_eq (c : Dev nD) (t : Fin cfg0.N) :
    (dats m 0 c).flushed 8 t = ((cfg0.win 8).blk t).view.read (Elt Ideal) (wholeScores m c) := by
  rw [flushed8]
  unfold out0_8
  rw [View.canon_unit_zero origin₂]
  simp only [View.ld_unit_zero (S := S64x12544) origin₂, View.ld_unit_zero (S := S12544x1024) origin₂,
    View.ld_unit_zero (S := S1024) origin₁, View.ld_unit_zero (S := S1024x1024) origin₂,
    View.ld_unit_zero (S := S1024x600) origin₂, View.ld_unit_zero (S := S600) origin₁,
    View.ld_unit_zero (S := S64x600) origin₂]
  funext j
  obtain ⟨p, q, rfl⟩ : ∃ (p : Fin 64) (q : Fin 600), j = ix2 p q := ⟨j 0, j 1, eq_ix2 j⟩
  show k0_pay1 (featBlk m c t) (w1Blk m c t) (b1Blk m c t) (w2Blk m c t) (b2Blk m c t) (w3Blk m c t) (b3Blk m c t)
      (priorBlk m c t) (ix2 p q) = wholeScores m c (((cfg0.win 8).blk t).view.emb (ix2 p q))
  exact (stored_at m c t p q).trans (congrArg (wholeScores m c) (resultBlk_emb t p q).symm)

/-! ## The blocks cover the array -/

/-- An index of the result array is in point `t`'s block iff each coordinate is in the block's range on its axis. -/
theorem mem_resultBlk (t : Fin cfg0.N) (i : S4096x600.Idx) :
    i ∈ ((cfg0.win 8).blk t).view.set ↔ ∀ a : Fin 2, win0_8.index t a * S64x600.size a ≤ (i a).val
      ∧ (i a).val < win0_8.index t a * S64x600.size a + S64x600.size a := by
  show i ∈ ((View.whole main_v40).slice (win0_8.rect t)).set ↔ _
  rw [View.set_slice_whole, Rect.mem_set_unit]
  exact Iff.rfl

/-- Row `r` of the result lies in the block of point `r / 64`. -/
theorem covered (i : S4096x600.Idx) :
    ∃ t : Fin cfg0.N, (cfg0.win 8).flush t = true ∧ i ∈ ((cfg0.win 8).blk t).view.set := by
  have hN : cfg0.N = 64 := N_0
  have hi0 : (i 0).val < 4096 := (i 0).isLt
  have hi1 : (i 1).val < 600 := (i 1).isLt
  let t : Fin cfg0.N := ⟨(i 0).val / 64, by rw [hN]; omega⟩
  have ht : t.val = (i 0).val / 64 := rfl
  obtain ⟨-, -, -, -, -, -, -, -, -, -, -, -, -, e0, e1⟩ := block_index t
  refine ⟨t, flush0_8 t, ?_⟩
  rw [mem_resultBlk]
  intro a
  match a with
  | ⟨0, _⟩ =>
    show win0_8.index t (0 : Fin 2) * 64 ≤ (i 0).val ∧ (i 0).val < win0_8.index t (0 : Fin 2) * 64 + 64
    omega
  | ⟨1, _⟩ =>
    show win0_8.index t (1 : Fin 2) * 600 ≤ (i 1).val ∧ (i 1).val < win0_8.index t (1 : Fin 2) * 600 + 600
    omega

/-! ## The array after the run, and the run -/

/-- After the run the result array is the score function of the arrays as the region finds them. -/
theorem final_eq (c : Dev nD) : (dats m 0 c).arrAt 8 cfg0.N = wholeScores m c :=
  (dats m 0 c).arrAt_eq_of_cover 8 (wholeScores m c) (fun t _ => written_eq m c t) covered

/-- The kernel program's run, read: every weakly fair execution terminates with the result array at the score
    function and the arguments unchanged. -/
theorem run : θ_run defs (onTc (τ := τ) (main (F := Ideal))) ⟨m, fun _ => 0, ρ⟩ fun r => ∀ c : Dev nD,
      r.2.mem ((c : Thread nD τ).loc main_v40) = wholeScores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_eq m c), (h c).2⟩) (run_blocks m ρ)

end Cert.KernelIdeal.Whole

end
-- ==== Proof.ReferenceScores.lean ====
/-
  The reference program's result is the score function of its argument arrays.

  The reference flattens each pair's features into a row, applies the three layers to all 4096 rows at once — each a
  `dot_general` contracting the rows' entries against a weight matrix's first axis, plus the bias laid over the rows by
  two broadcasts, the two hidden layers followed by a maximum against a splat of zero — and multiplies the prior by
  `1 / (1 + exp (−logits))`, spelt with a negation, an exponential, an addition to a splat of one and a division of a
  splat of one. On extended reals that quotient is the logistic function by definition, the float word of the two ones
  being the real number one (`word_one`). So entry by entry the result is `scores` of the prior, the flattened
  features, and the weights and biases as given (`result_eq_scores`).
-/
import proofs.«121794_j13185549599248_1_alg».proof.Proof.Gen.ReferenceIdeal.Read
import proofs.«121794_j13185549599248_1_alg».proof.Proof.PairScores

noncomputable section

namespace Cert.ReferenceIdeal.Scores

open Idealize.ShloMosaic Idealize.ShloMosaic.ValueIdx Cert.ReferenceIdeal Cert.ReferenceIdeal.Gen Cert.ReferenceIdeal.Read
open Cert.DenseLayer Cert.BiasLayer Cert.PairScores

/-! ## The three products are plain: `[4096, K] × [K, N]`, one contracted axis -/

theorem plain₁ : PlainDot (a := 4096) (K := 12544) (N := 1024) dot_S4096x12544_S12544x1024_S4096x1024_1_0_0_1_n_n :=
  ⟨rfl, rfl, lhs_main_v37_0, lhs_main_v37_1, rhs_main_v37_0, rhs_main_v37_1⟩

theorem plain₂ : PlainDot (a := 4096) (K := 1024) (N := 1024) dot_S4096x1024_S1024x1024_S4096x1024_1_0_0_1_n_n :=
  ⟨rfl, rfl, lhs_main_v42_0, lhs_main_v42_1, rhs_main_v42_0, rhs_main_v42_1⟩

theorem plain₃ : PlainDot (a := 4096) (K := 1024) (N := 600) dot_S4096x1024_S1024x600_S4096x600_1_0_0_1_n_n :=
  ⟨rfl, rfl, lhs_main_v47_0, lhs_main_v47_1, rhs_main_v47_0, rhs_main_v47_1⟩

/-! ## The layers, stage by stage -/

variable (x0 : (⟨S4096x256x7x7, .f32⟩ : BufTy).Contents (Elt Ideal))
  (x5 : (⟨S12544x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (x9 : (⟨S1024x600, .f32⟩ : BufTy).Contents (Elt Ideal)) (x10 : (⟨S600, .f32⟩ : BufTy).Contents (Elt Ideal))

/-- The first hidden layer: the flattened features times `W₁`, plus `b₁`, clamped at zero. -/
theorem hidden₁_apply (r : Fin 4096) (k : Fin 1024) :
    val_main_v41 (F := Ideal) x0 x5 x6 (ix2 r k) = reluAffine (val_main_v36 (F := Ideal) x0) x5 x6 (ix2 r k) := by
  unfold val_main_v41 val_main_v40 val_main_v37 val_main_v39 val_main_v38 val_main_call0_v0 val_main_call0_cst
  exact host_reluAffine_apply _ x5 x6 plain₁ none _ _ _ r k

/-- The second hidden layer: the first times `W₂`, plus `b₂`, clamped at zero. -/
theorem hidden₂_apply (r : Fin 4096) (k : Fin 1024) :
    val_main_v46 (F := Ideal) x0 x5 x6 x7 x8 (ix2 r k)
      = reluAffine (val_main_v41 (F := Ideal) x0 x5 x6) x7 x8 (ix2 r k) := by
  unfold val_main_v46 val_main_v45 val_main_v42 val_main_v44 val_main_v43 val_main_call1_v0 val_main_call1_cst
  exact host_reluAffine_apply _ x7 x8 plain₂ none _ _ _ r k

/-- The output layer: the second hidden layer times `W₃`, plus `b₃`. -/
theorem outLayer_apply (r : Fin 4096) (q : Fin 600) :
    val_main_v50 (F := Ideal) x0 x5 x6 x7 x8 x9 x10 (ix2 r q)
      = affine (val_main_v46 (F := Ideal) x0 x5 x6 x7 x8) x9 x10 (ix2 r q) := by
  unfold val_main_v50 val_main_v47 val_main_v49 val_main_v48
  exact host_affine_apply _ x9 x10 plain₃ none _ _ r q

/-- Together they are the perceptron's logits of the flattened features. -/
theorem logits_apply (r : Fin 4096) (q : Fin 600) :
    val_main_v50 (F := Ideal) x0 x5 x6 x7 x8 x9 x10 (ix2 r q)
      = logits (val_main_v36 (F := Ideal) x0) x5 x6 x7 x8 x9 x10 (ix2 r q) :=
  (outLayer_apply x0 x5 x6 x7 x8 x9 x10 r q).trans
    (affine_congr (val_main_v46 (F := Ideal) x0 x5 x6 x7 x8)
      (reluAffine (reluAffine (val_main_v36 (F := Ideal) x0) x5 x6) x7 x8) x9 x10 r r
      (fun k => (hidden₂_apply x0 x5 x6 x7 x8 r k).trans
        (reluAffine_congr (val_main_v41 (F := Ideal) x0 x5 x6) (reluAffine (val_main_v36 (F := Ideal) x0) x5 x6) x7 x8 r r
          (fun k' => hidden₁_apply x0 x5 x6 r k') k)) q)

/-! ## The logistic function as the host spells it -/

/-- The float word the host writes for its two ones is the real number one. -/
theorem word_one : Ideal.ofBits .f32 0x3F800000#32 = 1 := by
  simp [Ideal.ofBits, Ideal.ieee, -EReal.coe_mul]; norm_num

/-- One over one plus the exponential of the negated logits is the logistic function of the logits. -/
theorem sigmoid_apply (i : S4096x600.Idx) :
    val_main_v56 (F := Ideal) x0 x5 x6 x7 x8 x9 x10 i
      = Ideal.logistic (val_main_v50 (F := Ideal) x0 x5 x6 x7 x8 x9 x10 i) := by
  unfold val_main_v56 val_main_v55 val_main_v54 val_main_v53 val_main_v52 val_main_v51 val_main_cst val_main_cst_7
  show Ideal.div (broadcastInDim S4096x600 ![] bcast_S_S4096x600 (constant (F := Ideal) S_ .f32 0x3F800000#32) i)
      (broadcastInDim S4096x600 ![] bcast_S_S4096x600 (constant (F := Ideal) S_ .f32 0x3F800000#32) i
        + Ideal.exp (-(val_main_v50 (F := Ideal) x0 x5 x6 x7 x8 x9 x10 i))) = _
  rw [host_splat_apply]
  show Ideal.div (Ideal.ofBits .f32 0x3F800000#32)
      (Ideal.ofBits .f32 0x3F800000#32 + Ideal.exp (-(val_main_v50 (F := Ideal) x0 x5 x6 x7 x8 x9 x10 i))) = _
  rw [word_one]
  rfl

/-! ## The result -/

/-- The reference's result array is the score function of the prior it computes, the flattened features, and the
    weights and biases. -/
theorem result_eq_scores (x1 : (⟨S100, .f32⟩ : BufTy).Contents (Elt Ideal)) (x2 : (⟨S100, .i32⟩ : BufTy).Contents (Elt Ideal))
    (x3 : (⟨S4096x2, .i32⟩ : BufTy).Contents (Elt Ideal)) (x4 : (⟨S80x600, .f32⟩ : BufTy).Contents (Elt Ideal)) :
    val_main_v57 (F := Ideal) x0 x1 x2 x3 x4 x5 x6 x7 x8 x9 x10
      = scores (val_main_v35 (F := Ideal) x1 x2 x3 x4) (val_main_v36 (F := Ideal) x0) x5 x6 x7 x8 x9 x10 := by
  funext i
  obtain ⟨r, q, rfl⟩ : ∃ (r : Fin 4096) (q : Fin 600), i = ix2 r q := ⟨i 0, i 1, eq_ix2 i⟩
  rw [scores_apply, ← logits_apply x0 x5 x6 x7 x8 x9 x10 r q, ← sigmoid_apply x0 x5 x6 x7 x8 x9 x10 (ix2 r q)]
  rfl

end Cert.ReferenceIdeal.Scores

end
-- ==== Proof.RegionArrays.lean ====
/-
  The arrays the kernel region finds are the reference's own stages of the arguments.

  Before its kernel region the kernel program prepares, with host operations, the prior (the same slices, selects,
  gathers and products the reference uses, operation for operation), the flattened features (the same reshape), and the
  three weight matrices in a narrower float format, which on extended reals is no change; the biases it passes as they
  are. Reading each prepared array back through the host operations gives the reference's stage of the same arguments
  (`prior_eq`, `features_eq`) or the argument itself (`weights₁_eq` …). So the kernel's result, the score function of
  the arrays the region finds, is the score function of the reference's stages (`kernel_result_eq`).
-/
import proofs.«121794_j13185549599248_1_alg».proof.Proof.Gen.KernelIdeal.Frame
import proofs.«121794_j13185549599248_1_alg».proof.Proof.Gen.ReferenceIdeal.Read
import proofs.«121794_j13185549599248_1_alg».proof.Proof.KernelArray
import Idealize.ShloMosaic.Lib.StableHlo.Run

noncomputable section

open Idealize.ShloMosaic Idealize.ShloMosaic.TcCoe Idealize.SL.Sem Idealize.ShloMosaic.StableHlo

namespace Cert.Proof.SameArrays

open Cert.KernelIdeal.Gen Cert.KernelIdeal.Whole Cert.ReferenceIdeal.Read Cert.PairScores

variable (m : (ℓ : Loc Cert.KernelIdeal.nD Cert.KernelIdeal.τ Cert.KernelIdeal.sig) → Buf (Elt Ideal) ℓ)

set_option maxHeartbeats 4000000 in
set_option maxRecDepth 8192 in
/-- The prior the region finds is the reference's prior stage of the same scores, labels, pair indices and class map. -/
theorem prior_eq (c : Dev Cert.KernelIdeal.nD) :
    (V m c Cert.KernelIdeal.main_v35 : Cert.KernelIdeal.S4096x600.Idx → EReal)
      = val_main_v35 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  dsimp only [V, hostOps0]
  after_results_simp
  rfl

/-- The feature matrix the region finds is the reference's flattening of the same pair features. -/
theorem features_eq (c : Dev Cert.KernelIdeal.nD) :
    (V m c Cert.KernelIdeal.main_v36 : Cert.KernelIdeal.S4096x12544.Idx → EReal) = val_main_v36 (F := Ideal) (m ((c.tc : Thread Cert.KernelIdeal.nD Cert.KernelIdeal.τ).loc Cert.KernelIdeal.main_arg0)) := by
  dsimp only [V, hostOps0]
  after_results
  rfl

/-- The first weight matrix the region finds is the argument: the change of float format is the identity. -/
theorem weights₁_eq (c : Dev Cert.KernelIdeal.nD) :
    (V m c Cert.KernelIdeal.main_v37 : Cert.KernelIdeal.S12544x1024.Idx → EReal) = (m ((c.tc : Thread Cert.KernelIdeal.nD Cert.KernelIdeal.τ).loc Cert.KernelIdeal.main_arg5)) := by
  dsimp only [V, hostOps0]
  after_results
  rfl

theorem weights₂_eq (c : Dev Cert.KernelIdeal.nD) :
    (V m c Cert.KernelIdeal.main_v38 : Cert.KernelIdeal.S1024x1024.Idx → EReal) = (m ((c.tc : Thread Cert.KernelIdeal.nD Cert.KernelIdeal.τ).loc Cert.KernelIdeal.main_arg7)) := by
  dsimp only [V, hostOps0]
  after_results
  rfl

theorem weights₃_eq (c : Dev Cert.KernelIdeal.nD) :
    (V m c Cert.KernelIdeal.main_v39 : Cert.KernelIdeal.S1024x600.Idx → EReal) = (m ((c.tc : Thread Cert.KernelIdeal.nD Cert.KernelIdeal.τ).loc Cert.KernelIdeal.main_arg9)) := by
  dsimp only [V, hostOps0]
  after_results
  rfl

/-- The kernel's result is the score function of the reference's own stages of the kernel's arguments. -/
theorem kernel_result_eq (c : Dev Cert.KernelIdeal.nD) :
    wholeScores m c
      = scores (val_main_v35 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
          (val_main_v36 (F := Ideal) (m ((c.tc : Thread Cert.KernelIdeal.nD Cert.KernelIdeal.τ).loc Cert.KernelIdeal.main_arg0))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  show scores (V m c Cert.KernelIdeal.main_v35 : Cert.KernelIdeal.S4096x600.Idx → EReal) (V m c Cert.KernelIdeal.main_v36 : Cert.KernelIdeal.S4096x12544.Idx → EReal)
      (V m c Cert.KernelIdeal.main_v37 : Cert.KernelIdeal.S12544x1024.Idx → EReal) (V m c Cert.KernelIdeal.main_arg6)
      (V m c Cert.KernelIdeal.main_v38 : Cert.KernelIdeal.S1024x1024.Idx → EReal) (V m c Cert.KernelIdeal.main_arg8)
      (V m c Cert.KernelIdeal.main_v39 : Cert.KernelIdeal.S1024x600.Idx → EReal) (V m c Cert.KernelIdeal.main_arg10) = _
  rw [prior_eq, features_eq, weights₁_eq, weights₂_eq, weights₃_eq, V_main_arg6, V_main_arg8, V_main_arg10]

end Cert.Proof.SameArrays

end
-- ==== Proof.Claims.lean ====
/-
  The five claims.

  The three frames are the generated ones (the reference has no kernel: its frame is its run with the result dropped),
  and the idealization rewrote no operation. For the value claim: from memories agreeing on the arguments the kernel
  program ends with the score function of the arrays its region finds, which are the reference's stages of the
  arguments, and the reference ends with the score function of those stages.
-/
import proofs.«121794_j13185549599248_1_alg».proof.Defs
import proofs.«121794_j13185549599248_1_alg».proof.Proof.Gen.Kernel.Frame
import proofs.«121794_j13185549599248_1_alg».proof.Proof.Gen.KernelIdeal.Frame
import proofs.«121794_j13185549599248_1_alg».proof.Proof.Gen.Pre_finite_inputs
import proofs.«121794_j13185549599248_1_alg».proof.Proof.Gen.ReferenceIdeal.Run
import proofs.«121794_j13185549599248_1_alg».proof.Proof.Gen.ReferenceIdeal.Read
import proofs.«121794_j13185549599248_1_alg».proof.Proof.KernelArray
import proofs.«121794_j13185549599248_1_alg».proof.Proof.ReferenceScores
import proofs.«121794_j13185549599248_1_alg».proof.Proof.RegionArrays

noncomputable section

open Idealize.ShloMosaic Idealize.ShloMosaic.TcCoe Idealize.SL.Sem

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the score function of those arguments: the kernel
    block by block over the arrays its host operations prepare, the reference over all pairs at once. -/
theorem algebraic : Cert.algebraic_KernelIdeal_ReferenceIdeal := by
  intro m ρ m' ρ' _ hagree
  refine ⟨fun c => Cert.KernelIdeal.Whole.wholeScores m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v57_eq, h0, h1, h2, h3, h4, h5, h6, h7, h8, h9, h10,
    Cert.ReferenceIdeal.Scores.result_eq_scores]
  exact (Cert.Proof.SameArrays.kernel_result_eq m c).symm

end Cert.Proof.Claims

end
-- ==== Proof.lean ====
/-
  The certificate that the box-pair scoring kernel and its reference agree.

  Both programs score 4096 human–object box pairs against 600 interaction classes: a prior from the detections' scores
  and labels, times the logistic function of a three-layer perceptron's logits on the pair's pooled features. The
  reference applies the perceptron to all pairs at once; the kernel to 64 pairs per grid point, with the weights kept
  whole, the features and weights narrowed to a shorter float format on the way into each matrix product. On extended
  reals the narrowing is the identity, a product into a zero accumulator is the reference's contraction, the kernel's
  one logistic operation is the reference's quotient `1 / (1 + e⁻ᶻ)`, and a pair's score depends only on that pair's
  rows — so the 64 blocks of 64 rows the kernel writes are the blocks of the reference's result, and they cover it.

  Proof/LibDenseLayer.lean, Proof/LibColumnLayout.lean, Proof/LibBiasLayer.lean: a dense layer with a bias row as plain
  functions, and read off a vector program's and a host program's spelling. Proof/PairScores.lean: the score function,
  and that it is local to a pair's rows. Proof/KernelBlock.lean: one block through the kernel body.
  Proof/KernelArray.lean: from blocks to the whole array, and the kernel program's run. Proof/ReferenceScores.lean: the
  reference's result. Proof/RegionArrays.lean: the arrays the kernel region finds are the reference's stages of the
  arguments. Proof/Claims.lean: the five claims.
-/
import proofs.«121794_j13185549599248_1_alg».proof.Defs
import proofs.«121794_j13185549599248_1_alg».proof.Proof.Gen.Kernel
import proofs.«121794_j13185549599248_1_alg».proof.Proof.Gen.Kernel.Skeleton
import proofs.«121794_j13185549599248_1_alg».proof.Proof.Gen.Kernel.Launch
import proofs.«121794_j13185549599248_1_alg».proof.Proof.Gen.Kernel.Points
import proofs.«121794_j13185549599248_1_alg».proof.Proof.Gen.Kernel.Frame
import proofs.«121794_j13185549599248_1_alg».proof.Proof.Gen.KernelIdeal
import proofs.«121794_j13185549599248_1_alg».proof.Proof.Gen.KernelIdeal.Skeleton
import proofs.«121794_j13185549599248_1_alg».proof.Proof.Gen.KernelIdeal.Launch
import proofs.«121794_j13185549599248_1_alg».proof.Proof.Gen.KernelIdeal.Points
import proofs.«121794_j13185549599248_1_alg».proof.Proof.Gen.KernelIdeal.Frame
import proofs.«121794_j13185549599248_1_alg».proof.Proof.Gen.ReferenceIdeal
import proofs.«121794_j13185549599248_1_alg».proof.Proof.Gen.Pre_finite_inputs
import proofs.«121794_j13185549599248_1_alg».proof.Proof.Gen.KernelIdeal.Value
import proofs.«121794_j13185549599248_1_alg».proof.Proof.Gen.ReferenceIdeal.Run
import proofs.«121794_j13185549599248_1_alg».proof.Proof.Gen.ReferenceIdeal.Read
import proofs.«121794_j13185549599248_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
